-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x4x256 : Shape := ⟨4, ![32, 1024, 4, 256]⟩
abbrev S4 : Shape := ⟨1, ![4]⟩
abbrev S32 : Shape := ⟨1, ![32]⟩
abbrev S_ : Shape := ⟨0, ![]⟩

class Facts : Prop where
  bcast_S_S32x1024x4x256 : S_.BroadcastsInDim S32x1024x4x256 (![] : Fin 0 → Fin S32x1024x4x256.rank)
  reducesTo_S32x1024x4x256_S_d0_1_2_3 : S32x1024x4x256.ReducesTo [0, 1, 2, 3] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S32x1024x4x256 .f32) (main_arg1 : FVec F S4 .f32) (main_arg2 : IVec S32 32) : IVec S_ 1 :=
  let main_v0 : FVec F S32x1024x4x256 .f32 := Host.absf main_arg0
  let main_cst : FVec F S_ .f32 := constant S_ .f32 0x7F800000#32
  let main_v1 : FVec F S32x1024x4x256 .f32 := broadcastInDim S32x1024x4x256 ![] bcast_S_S32x1024x4x256 main_cst
  let main_v2 : IVec S32x1024x4x256 1 := cmpf .olt main_v0 main_v1
  let main_c : IVec S_ 1 := constantI S_ 1 1#1
  let main_v3 : IVec S_ 1 := (fun x v => Host.reduce IntOp.andi x v reducesTo_S32x1024x4x256_S_d0_1_2_3 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  main_v8
-- ==== Kernel.lean ====
abbrev S32x1024x4x256 : Shape := ⟨4, ![32, 1024, 4, 256]⟩
abbrev S4 : Shape := ⟨1, ![4]⟩
abbrev S32 : Shape := ⟨1, ![32]⟩
abbrev S_ : Shape := ⟨0, ![]⟩
abbrev S1 : Shape := ⟨1, ![1]⟩
abbrev S4x256 : Shape := ⟨2, ![4, 256]⟩
abbrev S1024 : Shape := ⟨1, ![1024]⟩
abbrev S32x1024x1024 : Shape := ⟨3, ![32, 1024, 1024]⟩
abbrev S32x1026x1024 : Shape := ⟨3, ![32, 1026, 1024]⟩
abbrev S1x1024x1024 : Shape := ⟨3, ![1, 1024, 1024]⟩
abbrev S1x1026x1024 : Shape := ⟨3, ![1, 1026, 1024]⟩
abbrev S1024x1024 : Shape := ⟨2, ![1024, 1024]⟩
abbrev S1x1024 : Shape := ⟨2, ![1, 1024]⟩
abbrev S1026x1024 : Shape := ⟨2, ![1026, 1024]⟩

abbrev nBuf : Space → Nat
  | .hbm => 19
  | .vmem => 5
  | .smem => 1
  | _ => 0

abbrev bufTy : (tb : Table) → Fin (tcTables nBuf tb) → BufTy
  | .hbm, ⟨0, _⟩ => ⟨S32x1024x4x256, .f32⟩
  | .hbm, ⟨1, _⟩ => ⟨S4, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S4, .f32⟩
  | .hbm, ⟨14, _⟩ => ⟨S4, .f32⟩
  | .hbm, ⟨15, _⟩ => ⟨S4x256, .f32⟩
  | .hbm, ⟨16, _⟩ => ⟨S1024, .f32⟩
  | .hbm, ⟨17, _⟩ => ⟨S32x1024x1024, .f32⟩
  | .hbm, ⟨18, _⟩ => ⟨S32x1026x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024, .f32⟩
  | .local _ .vmem, ⟨3, _⟩ => ⟨S1x1026x1024, .f32⟩
  | .local _ .vmem, ⟨4, _⟩ => ⟨S1x1026x1024, .f32⟩
  | .local _ .smem, ⟨0, _⟩ => ⟨S32, .i32⟩
  | _, _ => ⟨S32x1024x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1026x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4_S_d0 : S4.ReducesTo [0] S_
  h_S_ : 0 < S_.numel
  bcast_S_S1 : S_.BroadcastsInDim S1 (![] : Fin 0 → Fin S1.rank)
  bcast_S1_S4_0 : S1.BroadcastsInDim S4 (![0] : Fin 1 → Fin S4.rank)
  bcast_S4_S4x256_0 : S4.BroadcastsInDim S4x256 (![0] : Fin 1 → Fin S4x256.rank)
  shapeCasts_S4x256_S1024 : S4x256.ShapeCasts S1024
  shapeCasts_S32x1024x4x256_S32x1024x1024 : S32x1024x4x256.ShapeCasts S32x1024x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  concatenates_S1x1024_S1024x1024_S1x1024_S1026x1024_d0 : Shape.Concatenates [S1x1024, S1024x1024, S1x1024] S1026x1024 0
  iota_S1026x1024_d0_w32 : S1026x1024.Iotas .tc 32 [0]
  natLt_1_32 : 1 < 32
  inb_S1x1026x1024_S1x1026x1024_0_0_0 : ∀ a, (![0, 0, 0] : Fin 3 → Nat) a + S1x1026x1024.size a ≤ S1x1026x1024.size a
  h_S1x1026x1024 : 0 < S1x1026x1024.numel
  shapeCasts_S1x1026x1024_S1026x1024 : S1x1026x1024.ShapeCasts S1026x1024
  shapeCasts_S1026x1024_S1x1026x1024 : S1026x1024.ShapeCasts S1x1026x1024
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1026x1024.size a ≤ S32x1026x1024.size a
  hwx0_2 : ∀ i : grid0.Coords, EltTy.bits .f32 = 32 ∨ (Rect.block (s := S32x1026x1024) S1x1026x1024.size (cc0_transform_2 i) (hinb0_2 i)).WholeWords (EltTy.packing .f32)

variable [Facts₀]

abbrev spec0_0 : Pipeline.WinSpec sig grid0.rank :=
  Pipeline.WinSpec.ofSpec (Memref.whole main_v12) S1x1024x1024.size reads0_0 false false 2 stage0_0 sem0_0 nbuf0_0 hstage0_0

abbrev spec0_1 : Pipeline.WinSpec sig grid0.rank :=
  Pipeline.WinSpec.ofSpec (Memref.whole main_v11) S1024.size reads0_1 false true 1 stage0_1 sem0_1 nbuf0_1 hstage0_1

abbrev spec0_2 : Pipeline.WinSpec sig grid0.rank :=
  Pipeline.WinSpec.ofSpec (Memref.whole main_v13) S1x1026x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x1024x4x256 : Shape := ⟨4, ![32, 1024, 4, 256]⟩
abbrev S4 : Shape := ⟨1, ![4]⟩
abbrev S32 : Shape := ⟨1, ![32]⟩
abbrev S_ : Shape := ⟨0, ![]⟩
abbrev S1 : Shape := ⟨1, ![1]⟩
abbrev S1x1x4x1 : Shape := ⟨4, ![1, 1, 4, 1]⟩
abbrev S32x1024x1024 : Shape := ⟨3, ![32, 1024, 1024]⟩
abbrev S32x1026x1024 : Shape := ⟨3, ![32, 1026, 1024]⟩
abbrev S1026 : Shape := ⟨1, ![1026]⟩
abbrev S1x1026 : Shape := ⟨2, ![1, 1026]⟩
abbrev S32x1 : Shape := ⟨2, ![32, 1]⟩
abbrev S32x1026 : Shape := ⟨2, ![32, 1026]⟩
abbrev S32x1026x1 : Shape := ⟨3, ![32, 1026, 1]⟩
abbrev S1x1026x1 : Shape := ⟨3, ![1, 1026, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x1024x4x256, .f32⟩
  | .hbm, ⟨1, _⟩ => ⟨S4, .f32⟩
  | .hbm, ⟨2, _⟩ => ⟨S32, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S4, .f32⟩
  | .hbm, ⟨15, _⟩ => ⟨S4, .f32⟩
  | .hbm, ⟨16, _⟩ => ⟨S1x1x4x1, .f32⟩
  | .hbm, ⟨17, _⟩ => ⟨S32x1024x4x256, .f32⟩
  | .hbm, ⟨18, _⟩ => ⟨S32x1024x4x256, .f32⟩
  | .hbm, ⟨19, _⟩ => ⟨S32x1024x1024, .f32⟩
  | .hbm, ⟨20, _⟩ => ⟨S_, .i32⟩
  | .hbm, ⟨21, _⟩ => ⟨S_, .f32⟩
  | .hbm, ⟨22, _⟩ => ⟨S32x1026x1024, .f32⟩
  | .hbm, ⟨23, _⟩ => ⟨S1026, .i32⟩
  | .hbm, ⟨24, _⟩ => ⟨S1x1026, .i32⟩
  | .hbm, ⟨25, _⟩ => ⟨S32x1, .i32⟩
  | .hbm, ⟨26, _⟩ => ⟨S_, .i32⟩
  | .hbm, ⟨27, _⟩ => ⟨S1x1026, .i32⟩
  | .hbm, ⟨28, _⟩ => ⟨S1x1026, .i1⟩
  | .hbm, ⟨29, _⟩ => ⟨S32x1026, .i32⟩
  | .hbm, ⟨30, _⟩ => ⟨S32x1026, .i32⟩
  | .hbm, ⟨31, _⟩ => ⟨S32x1026, .i1⟩
  | .hbm, ⟨32, _⟩ => ⟨S32x1026, .i1⟩
  | .hbm, ⟨33, _⟩ => ⟨S32x1026, .i1⟩
  | .hbm, ⟨34, _⟩ => ⟨S_, .i32⟩
  | .hbm, ⟨35, _⟩ => ⟨S1x1026, .i32⟩
  | .hbm, ⟨36, _⟩ => ⟨S1x1026, .i1⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x1026, .i32⟩
  | .hbm, ⟨41, _⟩ => ⟨S32x1026, .i32⟩
  | .hbm, ⟨42, _⟩ => ⟨S32x1026, .i1⟩
  | .hbm, ⟨43, _⟩ => ⟨S32x1026x1, .i1⟩
  | .hbm, ⟨44, _⟩ => ⟨S_, .f32⟩
  | .hbm, ⟨45, _⟩ => ⟨S32x1026x1024, .i1⟩
  | .hbm, ⟨46, _⟩ => ⟨S32x1026x1024, .f32⟩
  | .hbm, ⟨47, _⟩ => ⟨S32x1026x1024, .f32⟩
  | .hbm, ⟨48, _⟩ => ⟨S1x1026x1, .i1⟩
  | .hbm, ⟨49, _⟩ => ⟨S1x1026x1, .f32⟩
  | .hbm, ⟨50, _⟩ => ⟨S_, .f32⟩
  | .hbm, ⟨51, _⟩ => ⟨S1x1026x1, .f32⟩
  | .hbm, ⟨52, _⟩ => ⟨S1x1026x1, .f32⟩
  | .hbm, ⟨53, _⟩ => ⟨S32x1026x1024, .f32⟩
  | .hbm, ⟨54, _⟩ => ⟨S32x1026x1024, .f32⟩
  | .hbm, ⟨55, _⟩ => ⟨S32x1026x1, .i1⟩
  | .hbm, ⟨56, _⟩ => ⟨S32x1026x1, .f32⟩
  | .hbm, ⟨57, _⟩ => ⟨S_, .f32⟩
  | .hbm, ⟨58, _⟩ => ⟨S32x1026x1, .f32⟩
  | .hbm, ⟨59, _⟩ => ⟨S32x1026x1, .f32⟩
  | .hbm, ⟨60, _⟩ => ⟨S32x1026x1024, .f32⟩
  | .hbm, ⟨61, _⟩ => ⟨S32x1026x1024, .f32⟩
  | _, _ => ⟨S32x1024x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  reducesTo_S4_S_d0 : S4.ReducesTo [0] S_
  h_S_ : 0 < S_.numel
  bcast_S_S1 : S_.BroadcastsInDim S1 (![] : Fin 0 → Fin S1.rank)
  bcast_S1_S4_0 : S1.BroadcastsInDim S4 (![0] : Fin 1 → Fin S4.rank)
  bcast_S4_S1x1x4x1_2 : S4.BroadcastsInDim S1x1x4x1 (![2] : Fin 1 → Fin S1x1x4x1.rank)
  bcast_S1x1x4x1_S32x1024x4x256_0_1_2_3 : S1x1x4x1.BroadcastsInDim S32x1024x4x256 (![0, 1, 2, 3] : Fin 4 → Fin S32x1024x4x256.rank)
  shapeCasts_S32x1024x4x256_S32x1024x1024 : S32x1024x4x256.ShapeCasts S32x1024x1024
  pads_S32x1024x1024_S32x1026x1024_000_110_000 : S32x1024x1024.Pads (![0, 1, 0] : Fin 3 → Nat) ![0, 1, 0] ![0, 0, 0] S32x1026x1024
  bcast_S1026_S1x1026_1 : S1026.BroadcastsInDim S1x1026 (![1] : Fin 1 → Fin S1x1026.rank)
  bcast_S32_S32x1_0 : S32.BroadcastsInDim S32x1 (![0] : Fin 1 → Fin S32x1.rank)
  bcast_S_S1x1026 : S_.BroadcastsInDim S1x1026 (![] : Fin 0 → Fin S1x1026.rank)
  bcast_S1x1026_S32x1026_0_1 : S1x1026.BroadcastsInDim S32x1026 (![0, 1] : Fin 2 → Fin S32x1026.rank)
  bcast_S32x1_S32x1026_0_1 : S32x1.BroadcastsInDim S32x1026 (![0, 1] : Fin 2 → Fin S32x1026.rank)
  bcast_S_S32x1 : S_.BroadcastsInDim S32x1 (![] : Fin 0 → Fin S32x1.rank)
  bcast_S32x1026_S32x1026x1_0_1 : S32x1026.BroadcastsInDim S32x1026x1 (![0, 1] : Fin 2 → Fin S32x1026x1.rank)
  bcast_S32x1026x1_S32x1026x1024_0_1_2 : S32x1026x1.BroadcastsInDim S32x1026x1024 (![0, 1, 2] : Fin 3 → Fin S32x1026x1024.rank)
  bcast_S_S32x1026x1024 : S_.BroadcastsInDim S32x1026x1024 (![] : Fin 0 → Fin S32x1026x1024.rank)
  bcast_S1x1026_S1x1026x1_0_1 : S1x1026.BroadcastsInDim S1x1026x1 (![0, 1] : Fin 2 → Fin S1x1026x1.rank)
  bcast_S_S1x1026x1 : S_.BroadcastsInDim S1x1026x1 (![] : Fin 0 → Fin S1x1026x1.rank)
  bcast_S1x1026x1_S32x1026x1024_0_1_2 : S1x1026x1.BroadcastsInDim S32x1026x1024 (![0, 1, 2] : Fin 3 → Fin S32x1026x1024.rank)
  bcast_S_S32x1026x1 : S_.BroadcastsInDim S32x1026x1 (![] : Fin 0 → Fin S32x1026x1.rank)

variable [Facts₀]

class Facts : Prop extends Facts₀ where

variable [Facts]
-- ==== Proof.KernelPiece.lean ====
/-
  What one grid point leaves in the output block.

  The body runs once per batch row. It loads the row's length word from the table of lengths held in scalar memory, at the
  entry the row number names; it loads its two input blocks whole; and it stores one value over the whole output block.
  So what the point leaves in the block is that stored value, a function of the length word and the two input blocks.
-/
import proofs.«431056_j35098472743519_1_alg».proof.Proof.Gen.KernelIdeal.Frame
import Idealize.ShloMosaic.Lib.Pipeline.Value
import Idealize.ShloMosaic.Lib.Tactic

noncomputable section

namespace Cert.Ragged.Piece

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a <;> rfl

/-- The word the body loads from the table of lengths at grid point `i`: the table read through the one-word
    rectangle at the offset the row number gives. -/
def lenAt (c : Dev nD) (i : grid0.Coords) (xt0 : TbBuf0 (F := F) c tbM0_0) : Elt F .i32 :=
  View.readAt (Elt F) tbM0_0.view (Rect.unit (s := S32) (k0_off1 i) S1.size (Facts₀.k0_off1_inb i)).toLoadRect xt0
    (Shape.Idx.first (Facts₀.numel1_S1.symm ▸ Nat.one_pos))

/-- The output block after the body: the stored value at the loaded length word and the two input blocks. The body's one
    store covers the block, and its loads read the input buffers whole. -/
theorem out_eq (c : Dev nD) (i : grid0.Coords) (arg2 : Memref sig .tc .vmem S1x1024x1024 .f32) (harg2 : arg2.IsWhole)
    (arg3 : Memref sig .tc .vmem S1024 .f32) (harg3 : arg3.IsWhole) (arg4 : Memref sig .tc .vmem S1x1026x1024 .f32)
    (harg4 : arg4.IsWhole) (x0 : Vec F S1x1024x1024 .f32) (x1 : Vec F S1024 .f32) (xt0 : TbBuf0 (F := F) c tbM0_0) :
    out0_A_2 c i arg2 harg2 arg3 harg3 arg4 harg4 x0 x1 xt0 = k0_pay1 (lenAt c i xt0) x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero hz3]
  unfold lenAt
  simp only [View.readAt_eq_ld, harg2.read_unread, harg3.read_unread, View.ld_unit_zero (S := S1x1024x1024) hz3,
    View.ld_unit_zero (S := S1024) hz1]
  rfl

end Cert.Ragged.Piece

end
-- ==== Proof.Spec.lean ====
/-
  The padded, length-masked sequence both programs compute, entry by entry.

  A batch row `b` has `len` tokens (a 32-bit word, read signed). Its output has 1026 positions: position 0 carries the
  marker 1, positions 1 … 1024 carry the token embeddings shifted by one place — each the input entry times the weight
  of its group of 256 lanes — and are kept only where `1 ≤ position ≤ len`, position `len + 1` (the sum taken in
  32-bit words) carries the marker 2, and everything else is 0. The comparisons are on words, so the function is stated
  over the words' comparison bits and holds for every length word, in range or not.
-/
import Idealize.ShloMosaic.PureOps.Ideal
import Idealize.ShloMosaic.PureOps.Ideal.Laws
import Idealize.ShloMosaic.Lib.ValueIdx
import Idealize.ShloMosaic.Lib.IdealHost
import Idealize.ShloMosaic.Lib.KernelVsHost

noncomputable section

namespace Cert.Ragged

open Idealize.ShloMosaic Idealize.ShloMosaic.ValueIdx

abbrev SX : Shape := ⟨4, ![32, 1024, 4, 256]⟩
abbrev SW : Shape := ⟨1, ![4]⟩
abbrev SLen : Shape := ⟨1, ![32]⟩
abbrev SOut : Shape := ⟨3, ![32, 1026, 1024]⟩

/-- Position `r` as the 32-bit word the programs compare. -/
abbrev posW (r : Fin 1026) : BitVec 32 := BitVec.ofNat 32 r.val

/-- "Position `r` holds a token": `1 ≤ r` and `r ≤ len`, both signed comparisons of words. -/
def tokBit (r : Fin 1026) (len : BitVec 32) : BitVec 1 :=
  IntOp.andi (IntOp.cmpi .sge (posW r) 1#32) (IntOp.cmpi .sle (posW r) len)

/-- "Position `r` is the leading marker": `r = 0`. -/
def clsBit (r : Fin 1026) : BitVec 1 := IntOp.cmpi .eq (posW r) 0#32

/-- "Position `r` is the closing marker": `r = len + 1`, the sum a 32-bit word. -/
def sepBit (r : Fin 1026) (len : BitVec 32) : BitVec 1 := IntOp.cmpi .eq (posW r) (IntOp.addi len 1#32)

/-- The value 2 as both programs spell it. -/
abbrev two : Ideal .f32 := FloatOps.ofBits (F := Ideal) .f32 0x40000000#32

/-- One output entry from the length word, the position, and the shifted embedding `e` at that position:
    `e` where a token sits and 0 elsewhere, plus the leading marker's 1, plus the closing marker's 2. -/
def entry (len : BitVec 32) (r : Fin 1026) (e : Ideal .f32) : Ideal .f32 :=
  FloatOps.addf (FloatOps.addf (Scalar.select (tokBit r len) e 0) (FloatOps.uitofp .f32 (clsBit r)))
    (FloatOps.mulf two (FloatOps.uitofp .f32 (sepBit r len)))

/-- The weighted embeddings shifted by one position, with a zero row in front and one behind: at position `r` and lane `k`
    the input at token `r - 1`, group `k / 256`, lane `k % 256`, times that group's weight. -/
def shifted (x : FVec Ideal SX .f32) (w : FVec Ideal SW .f32) (b : Fin 32) (r : Fin 1026) (k : Fin 1024) : Ideal .f32 :=
  if h : 1 ≤ r.val ∧ r.val ≤ 1024 then
    FloatOps.mulf (x (ix4 b ⟨r.val - 1, by omega⟩ ⟨k.val / 256, by have := k.isLt; omega⟩ ⟨k.val % 256, by omega⟩))
      (w (ix1 ⟨k.val / 256, by have := k.isLt; omega⟩))
  else 0

/-- The whole result: entry `(b, r, k)` from row `b`'s length word and the shifted embedding there. -/
def G (x : FVec Ideal SX .f32) (w : FVec Ideal SW .f32) (lens : IVec SLen 32) : FVec Ideal SOut .f32 := fun j =>
  entry (lens (ix1 (j 0))) (j 1) (shifted x w (j 0) (j 1) (j 2))

/-! ## The scalar laws that join the two spellings -/

/-- A bit widened to a word and converted signed is the bit converted unsigned: both are 0 or 1. -/
theorem sitofp_zext (b : BitVec 1) :
    (FloatOps.sitofp (F := Ideal) .f32 (b.setWidth 32) : Ideal .f32) = FloatOps.uitofp .f32 b := by
  show ((((b.setWidth 32).toInt : ℝ)) : EReal) = (((b.toNat : ℝ)) : EReal)
  rw [toInt_setWidth_bit]
  norm_cast

/-- Multiplying by the word for 1 changes nothing, at every extended real. -/
theorem mulf_one_word (x : Ideal .f32) : FloatOps.mulf x (FloatOps.ofBits (F := Ideal) .f32 0x3F800000#32) = x := by
  show (x : EReal) * Ideal.ofBits .f32 0x3F800000#32 = x
  rw [Ideal.ofBits_one_f32, mul_one]

/-- The product with 2 in either order. -/
theorem mulf_two_comm (x : Ideal .f32) : FloatOps.mulf x two = FloatOps.mulf two x := by
  show (x : EReal) * _ = _ * (x : EReal)
  exact mul_comm _ _

/-- The zero word is 0. -/
theorem zero_word : (FloatOps.ofBits (F := Ideal) .f32 0x00000000#32 : Ideal .f32) = 0 := by
  show Ideal.ofBits .f32 0x00000000#32 = 0
  exact Ideal.ofBits_zero_f32

/-- The integer 0 converted is 0. -/
theorem sitofp_zero_word : (FloatOps.sitofp (F := Ideal) .f32 (0#32) : Ideal .f32) = 0 := by
  show ((((0#32 : BitVec 32).toInt : ℝ)) : EReal) = 0
  simp

end Cert.Ragged

end
-- ==== Proof.KernelBody.lean ====
/-
  The kernel body's one stored value, read at an entry.

  At a grid point the body loads the row's block of the flattened input, `[1, 1024, 1024]`, and the 1024 lane weights,
  multiplies each token row by the weights, stacks a zero row in front and one behind (1026 rows), compares the row
  number with 1, with the row's length word and with that word plus one, keeps the stacked value where a token sits,
  and adds the two markers. Read at row `r`, lane `k` this is the `entry` of Spec.lean at the length word, position
  `r`, and the stacked value there: the product at token `r - 1` when `1 ≤ r ≤ 1024`, and 0 on the two added rows.
-/
import proofs.«431056_j35098472743519_1_alg».proof.Proof.Gen.KernelIdeal.Skeleton
import proofs.«431056_j35098472743519_1_alg».proof.Proof.Spec
import Idealize.ShloMosaic.Lib.Pipeline.Value
import Idealize.ShloMosaic.Lib.ValueLayout
import Idealize.ShloMosaic.Lib.ValueIdx

noncomputable section

namespace Cert.Ragged.Body

open Idealize.ShloMosaic Idealize.ShloMosaic.ValueIdx
open Cert.KernelIdeal Cert.KernelIdeal.Gen

/-- Three blocks stacked along the rows — one row, 1024 rows, one row — read at row `r`: the middle block at row
    `r - 1` when `1 ≤ r ≤ 1024`, else the one-row block (the same block in front and behind). -/
theorem stack_apply {α : Type} (z : S1x1024.Idx → α) (y : S1024x1024.Idx → α)
    (h : Shape.Concatenates [S1x1024, S1024x1024, S1x1024] S1026x1024 0) (r : Fin 1026) (k : Fin 1024) :
    concatenate S1026x1024 0 [⟨S1x1024, z⟩, ⟨S1024x1024, y⟩, ⟨S1x1024, z⟩] h (ix2 r k)
      = if h' : 1 ≤ r.val ∧ r.val ≤ 1024 then y (ix2 (⟨r.val - 1, by omega⟩ : Fin 1024) k) else z (ix2 (0 : Fin 1) k) := by
  have hr := r.isLt
  by_cases h' : 1 ≤ r.val ∧ r.val ≤ 1024
  · rw [dif_pos h']
    refine concatenate_apply_piece (t := S1026x1024) 0 ([⟨S1x1024, z⟩, ⟨S1024x1024, y⟩, ⟨S1x1024, z⟩] : List ((s : Shape) × (s.Idx → α)))
      h (ix2 r k) 1 (Nat.lt_of_sub_eq_succ rfl) S1024x1024 y rfl rfl 1 rfl
      (ix2 (⟨r.val - 1, by omega⟩ : Fin 1024) k) (fun b hb => ?_) ?_
    · match b with
      | ⟨0, _⟩ => exact absurd rfl hb
      | ⟨1, _⟩ => rfl
    · show 1 + (r.val - 1) = r.val; omega
  · rw [dif_neg h']
    by_cases h0 : r.val = 0
    · refine concatenate_apply_piece (t := S1026x1024) 0 ([⟨S1x1024, z⟩, ⟨S1024x1024, y⟩, ⟨S1x1024, z⟩] : List ((s : Shape) × (s.Idx → α)))
        h (ix2 r k) 0 (Nat.lt_of_sub_eq_succ rfl) S1x1024 z rfl rfl 0 rfl
        (ix2 (0 : Fin 1) k) (fun b hb => ?_) ?_
      · match b with
        | ⟨0, _⟩ => exact absurd rfl hb
        | ⟨1, _⟩ => rfl
      · show 0 + 0 = r.val; omega
    · refine concatenate_apply_piece (t := S1026x1024) 0 ([⟨S1x1024, z⟩, ⟨S1024x1024, y⟩, ⟨S1x1024, z⟩] : List ((s : Shape) × (s.Idx → α)))
        h (ix2 r k) 2 (Nat.lt_of_sub_eq_succ rfl) S1x1024 z rfl rfl 1025 rfl
        (ix2 (0 : Fin 1) k) (fun b hb => ?_) ?_
      · match b with
        | ⟨0, _⟩ => exact absurd rfl hb
        | ⟨1, _⟩ => rfl
      · show 1025 + 0 = r.val; omega

/-- The row number the body's `iota` gives at `(r, k)` is the position word of `r`. -/
theorem row_word (r : Fin 1026) (k : Fin 1024) :
    iota .tc S1026x1024 32 [0] Facts₀.iota_S1026x1024_d0_w32 (ix2 r k) = posW r :=
  iota_single_apply .tc S1026x1024 32 0 _ (ix2 r k)

/-- The stored value at `(0, r, k)`: Spec.lean's `entry` at the length word `len`, position `r`, and the stacked
    product there. -/
theorem pay_apply (len : BitVec 32) (v2 : Vec Ideal S1x1024x1024 .f32) (v4 : Vec Ideal S1024 .f32)
    (r : Fin 1026) (k : Fin 1024) :
    k0_pay1 (F := Ideal) len v2 v4 (ix3 (0 : Fin 1) r k)
      = entry len r (if h : 1 ≤ r.val ∧ r.val ≤ 1024 then
          FloatOps.mulf (v2 (ix3 (0 : Fin 1) (⟨r.val - 1, by omega⟩ : Fin 1024) k)) (v4 (ix1 k)) else 0) := by
  unfold k0_pay1
  refine (shapeCast_ab_1ab_apply _ _ (0 : Fin 1) r k).trans ?_
  -- every remaining operation is entrywise but the stack and the row numbers
  show FloatOps.addf (FloatOps.addf (Scalar.select (IntOp.andi
        (IntOp.cmpi .sge (iota .tc S1026x1024 32 [0] Facts₀.iota_S1026x1024_d0_w32 (ix2 r k)) 1#32)
        (IntOp.cmpi .sle (iota .tc S1026x1024 32 [0] Facts₀.iota_S1026x1024_d0_w32 (ix2 r k)) len))
      (concatenate S1026x1024 0 [⟨S1x1024, broadcast S1x1024 (Scalar.ofBits (F := Ideal) .f32 0x00000000#32)⟩,
        ⟨S1024x1024, mulf (F := Ideal) (φ := .f32) (shapeCast S1024x1024 v2 Facts₀.shapeCasts_S1x1024x1024_S1024x1024)
          (broadcastTo S1024x1024 (shapeCast S1x1024 (shapeCast S1024 (v4 : FVec Ideal S1024 .f32) Facts₀.shapeCasts_S1024_S1024)
            Facts₀.shapeCasts_S1024_S1x1024) Facts₀.broadcasts_S1x1024_S1024x1024)⟩,
        ⟨S1x1024, broadcast S1x1024 (Scalar.ofBits (F := Ideal) .f32 0x00000000#32)⟩]
        Facts₀.concatenates_S1x1024_S1024x1024_S1x1024_S1026x1024_d0 (ix2 r k))
      (Scalar.ofBits (F := Ideal) .f32 0x00000000#32))
      (FloatOps.sitofp (F := Ideal) .f32
        ((IntOp.cmpi .eq (iota .tc S1026x1024 32 [0] Facts₀.iota_S1026x1024_d0_w32 (ix2 r k)) 0#32).setWidth 32)))
    (FloatOps.mulf (Scalar.ofBits (F := Ideal) .f32 0x40000000#32) (FloatOps.sitofp (F := Ideal) .f32
      ((IntOp.cmpi .eq (iota .tc S1026x1024 32 [0] Facts₀.iota_S1026x1024_d0_w32 (ix2 r k)) (Scalar.addi len 1#32)).setWidth 32))) = _
  rw [row_word, stack_apply, sitofp_zext, sitofp_zext]
  unfold entry
  congr 2
  · -- the kept value and the zero of the other branch
    have hz : (Scalar.ofBits (F := Ideal) .f32 0x00000000#32 : Ideal .f32) = 0 := zero_word
    rw [hz]
    congr 1
    by_cases h' : 1 ≤ r.val ∧ r.val ≤ 1024
    · rw [dif_pos h', dif_pos h']
      show FloatOps.mulf (F := Ideal) (shapeCast S1024x1024 (v2 : FVec Ideal S1x1024x1024 .f32) Facts₀.shapeCasts_S1x1024x1024_S1024x1024 (ix2 (⟨r.val - 1, by omega⟩ : Fin 1024) k))
        (broadcastTo S1024x1024 (shapeCast S1x1024 (shapeCast S1024 (v4 : FVec Ideal S1024 .f32) Facts₀.shapeCasts_S1024_S1024)
            Facts₀.shapeCasts_S1024_S1x1024) Facts₀.broadcasts_S1x1024_S1024x1024 (ix2 (⟨r.val - 1, by omega⟩ : Fin 1024) k)) = _
      rw [shapeCast_1ab_ab_apply, broadcastTo_1b_ab_apply, shapeCast_a_1a_apply, shapeCast_self]
    · rw [dif_neg h', dif_neg h']
      rfl

end Cert.Ragged.Body

end
-- ==== Proof.KernelValue.lean ====
/-
  The kernel's result array is the padded, length-masked sequence of Spec.lean.

  The grid has one point per batch row. Point `t` reads row `t` of the flattened input (a `[1, 1024, 1024]` block of the
  `[32, 1024, 1024]` reshape, whose lane `k` is group `k / 256`, lane `k % 256` of the input), the 1024 lane weights
  (each group's weight repeated over its 256 lanes) and the row's length word from the table, and writes back block `t`
  of the result, `[1, 1026, 1024]`. So block `t` of what the run leaves is block `t` of Spec.lean's `G` of the input,
  the four group weights and the table; the 32 blocks cover the result array; hence the array is `G`.
  The group weights are whatever the host operations before the call left in their buffer: the softmax is not opened.
-/
import proofs.«431056_j35098472743519_1_alg».proof.Proof.KernelPiece
import proofs.«431056_j35098472743519_1_alg».proof.Proof.KernelBody
import Idealize.ShloMosaic.Lib.StableHlo.Run

noncomputable section

namespace Cert.Ragged.Kernel

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen

/-! ## One point's stored value is a block of `G` -/

/-- If the first input block is row `b` of the input with the two lane axes merged, the second is the group weights
    repeated over the lanes, and the length word is row `b`'s, the stored value at `(u, r, k)` is `G` at `(b, r, k)`. -/
theorem pay_eq_G (len : BitVec 32) (v2 : Vec Ideal S1x1024x1024 .f32) (v4 : Vec Ideal S1024 .f32)
    (x : FVec Ideal SX .f32) (w : FVec Ideal SW .f32) (lens : IVec SLen 32) (b : Fin 32)
    (h2 : ∀ (l : Fin 1024) (k : Fin 1024), v2 (ix3 (0 : Fin 1) l k)
      = x (ix4 b l (⟨k.val / 256, by have := k.isLt; omega⟩ : Fin 4) (⟨k.val % 256, by omega⟩ : Fin 256)))
    (h4 : ∀ k : Fin 1024, v4 (ix1 k) = w (ix1 (⟨k.val / 256, by have := k.isLt; omega⟩ : Fin 4)))
    (hl : len = lens (ix1 b)) (u : Fin 1) (r : Fin 1026) (k : Fin 1024) :
    k0_pay1 (F := Ideal) len v2 v4 (ix3 u r k) = G x w lens (ix3 b r k) := by
  obtain rfl : u = 0 := Subsingleton.elim _ _
  rw [Body.pay_apply]
  subst hl
  show entry _ r _ = entry (lens (ix1 b)) r (shifted x w b r k)
  congr 1
  unfold shifted
  by_cases h : 1 ≤ r.val ∧ r.val ≤ 1024
  · rw [dif_pos h, dif_pos h, h2, h4]
  · rw [dif_neg h, dif_neg h]

variable (m : (ℓ : Loc nD τ sig) → Buf (Elt Ideal) ℓ) (ρ : Dev nD → PrngReg)

/-! ## What the region finds: the reshaped input, the lane weights, the table -/

/-- The first window's array is the input reshaped `[32, 1024, 4, 256] → [32, 1024, 1024]`. -/
theorem V12 (c : Dev nD) : (V m c main_v12 : S32x1024x1024.Idx → Ideal .f32)
    = shapeCast S32x1024x1024 (m ((c : Thread nD τ).loc main_arg0)) Facts₀.shapeCasts_S32x1024x4x256_S32x1024x1024 := by
  dsimp only [V, hostOps0]; after_results; rfl

/-- The second window's array is the four group weights, as the host operations left them, each repeated over 256
    lanes and flattened. -/
theorem V11 (c : Dev nD) : (V m c main_v11 : S1024.Idx → Ideal .f32)
    = shapeCast S1024 (broadcastInDim S4x256 ![0] Facts₀.bcast_S4_S4x256_0 (V m c main_v9 : S4.Idx → Ideal .f32))
        Facts₀.shapeCasts_S4x256_S1024 := by
  dsimp only [V, hostOps0]; after_results; rfl

/-- The printed index maps over the grid: point `t` takes block `t` of the input and of the result, the one block of the
    weights, and its grid coordinate is `t`. -/
theorem idx_facts : ∀ t : Fin grid0.N, cc0_transform_0 (grid0.coords t) = ![t.val, 0, 0]
    ∧ cc0_transform_1 (grid0.coords t) = ![0] ∧ cc0_transform_2 (grid0.coords t) = ![t.val, 0, 0]
    ∧ ((grid0.coords t) 0).val = t.val := by decide +kernel

/-- A grid point's number is below 32, -/
theorem lt32 (hO : Ok m) (t : Fin (cfgM m hO).N) : t.val < 32 := t.isLt
/-- so it names a batch row. -/
abbrev row (hO : Ok m) (t : Fin (cfgM m hO).N) : Fin 32 := ⟨t.val, lt32 m hO t⟩

/-- The input block at point `t` is row `t` of the reshaped input. -/
theorem blk0 (hO : Ok m) (c : Dev nD) (t : Fin (cfgM m hO).N) (y : S1x1024x1024.Idx) :
    iblk m hO c 0 t y = (V m c main_v12 : S32x1024x1024.Idx → Ideal .f32) (ix3 (row m hO t) (y 1) (y 2)) := by
  show (V m c main_v12 : S32x1024x1024.Idx → Ideal .f32) ((((cfgM m hO).win 0).blk t).view.emb y) = _
  congr 1
  funext a
  apply Fin.ext
  obtain ⟨e0, -, -, -⟩ := idx_facts t
  have h0 : (y 0).val < 1 := (y 0).isLt
  match a with
  | ⟨0, _⟩ => show cc0_transform_0 (grid0.coords t) 0 * 1 + 1 * (y 0).val = t.val; rw [e0]; show t.val * 1 + 1 * (y 0).val = t.val; omega
  | ⟨1, _⟩ => show cc0_transform_0 (grid0.coords t) 1 * 1024 + 1 * (y 1).val = (y 1).val; rw [e0]; show 0 * 1024 + 1 * (y 1).val = (y 1).val; omega
  | ⟨2, _⟩ => show cc0_transform_0 (grid0.coords t) 2 * 1024 + 1 * (y 2).val = (y 2).val; rw [e0]; show 0 * 1024 + 1 * (y 2).val = (y 2).val; omega

/-- The weights block at every point is the whole lane-weight vector. -/
theorem blk1 (hO : Ok m) (c : Dev nD) (t : Fin (cfgM m hO).N) (y : S1024.Idx) :
    iblk m hO c 1 t y = (V m c main_v11 : S1024.Idx → Ideal .f32) y := by
  show (V m c main_v11 : S1024.Idx → Ideal .f32) ((((cfgM m hO).win 1).blk t).view.emb y) = _
  congr 1
  funext a
  apply Fin.ext
  obtain ⟨-, e1, -, -⟩ := idx_facts t
  match a with
  | ⟨0, _⟩ => show cc0_transform_1 (grid0.coords t) 0 * 1024 + 1 * (y 0).val = (y 0).val; rw [e1]; show 0 * 1024 + 1 * (y 0).val = (y 0).val; omega

/-- The result block at point `t` sits at row `t` of the result array. -/
theorem emb2 (hO : Ok m) (t : Fin (cfgM m hO).N) (y : S1x1026x1024.Idx) :
    (((cfgM m hO).win 2).blk t).view.emb y = (ix3 (row m hO t) (y 1) (y 2) : S32x1026x1024.Idx) := by
  funext a
  apply Fin.ext
  obtain ⟨-, -, e2, -⟩ := idx_facts t
  have h0 : (y 0).val < 1 := (y 0).isLt
  match a with
  | ⟨0, _⟩ => show cc0_transform_2 (grid0.coords t) 0 * 1 + 1 * (y 0).val = t.val; rw [e2]; show t.val * 1 + 1 * (y 0).val = t.val; omega
  | ⟨1, _⟩ => show cc0_transform_2 (grid0.coords t) 1 * 1026 + 1 * (y 1).val = (y 1).val; rw [e2]; show 0 * 1026 + 1 * (y 1).val = (y 1).val; omega
  | ⟨2, _⟩ => show cc0_transform_2 (grid0.coords t) 2 * 1024 + 1 * (y 2).val = (y 2).val; rw [e2]; show 0 * 1024 + 1 * (y 2).val = (y 2).val; omega

/-- The loaded length word is the table's entry at the row number. -/
theorem lenAt_apply (c : Dev nD) (i : grid0.Coords) (f : TbBuf0 (F := Ideal) c tbM0_0) :
    Piece.lenAt (F := Ideal) c i f = (f : S32.Idx → BitVec 32) (ix1 (i 0)) := by
  unfold Piece.lenAt
  show (f : S32.Idx → BitVec 32) _ = (f : S32.Idx → BitVec 32) _
  congr 1
  funext a
  apply Fin.ext
  match a with
  | ⟨0, _⟩ =>
    have e := congrFun (k0_off1_eq i) 0
    show k0_off1 i 0 + 1 * 0 = (i 0).val
    rw [e]; rfl

/-! ## The result array -/

/-- The result: `G` of the input, the four group weights the host operations left, and the table of lengths. -/
abbrev res (c : Dev nD) : FVec Ideal S32x1026x1024 .f32 :=
  G (m ((c : Thread nD τ).loc main_arg0)) (V m c main_v9 : S4.Idx → Ideal .f32) (m ((c : Thread nD τ).loc main_arg2))

/-- The value point `t` stores, at a block index, is the result at row `t`. -/
theorem stored_eq (hO : Ok m) (c : Dev nD) (t : Fin (cfgM m hO).N) (y : S1x1026x1024.Idx) :
    k0_pay1 (F := Ideal) (Piece.lenAt c (grid0.coords t) (tbl m 0)) (iblk m hO c 0 t) (iblk m hO c 1 t) y
      = res m c (ix3 (row m hO t) (y 1) (y 2)) := by
  obtain rfl : c = 0 := Subsingleton.elim _ _
  refine (congrArg _ (eq_ix3 y)).trans ?_
  refine pay_eq_G _ _ _ _ _ _ (row m hO t) (fun l k => ?_) (fun k => ?_) ?_ (y 0) (y 1) (y 2)
  · rw [blk0, V12]
    refine shapeCast_apply _ _ _ _ ?_
    show (S32x1024x4x256.rowMajor (ix4 (row m hO t) l (⟨k.val / 256, by have := k.isLt; omega⟩ : Fin 4) (⟨k.val % 256, by omega⟩ : Fin 256))).val
      = (S32x1024x1024.rowMajor (ix3 (row m hO t) l k)).val
    rw [Shape.rowMajor_val_four, Shape.rowMajor_val_three]
    have hk := k.isLt
    show ((t.val * 1024 + l.val) * 4 + k.val / 256) * 256 + k.val % 256 = (t.val * 1024 + l.val) * 1024 + k.val
    omega
  · rw [blk1, V11]
    have hk := k.isLt
    refine (shapeCast_apply _ _ (ix1 k) (ix2 (⟨k.val / 256, by omega⟩ : Fin 4) (⟨k.val % 256, by omega⟩ : Fin 256)) ?_).trans ?_
    · rw [Shape.rowMajor_val_two, Shape.rowMajor_val_one]
      show k.val / 256 * 256 + k.val % 256 = k.val
      omega
    · refine broadcastInDim_apply _ Facts₀.bcast_S4_S4x256_0 _ _ (ix1 (⟨k.val / 256, by omega⟩ : Fin 4)) (fun a => ?_)
      match a with
      | ⟨0, _⟩ => show k.val / 256 = if (4 : Nat) = 1 then 0 else k.val / 256; rw [if_neg (by decide)]
  · refine (lenAt_apply 0 (grid0.coords t) (tbl m 0)).trans ?_
    obtain ⟨-, -, -, e3⟩ := idx_facts t
    show (tbl m 0 : S32.Idx → BitVec 32) _ = _
    refine (congrFun (V_main_arg2 m 0) _).trans ?_
    exact congrArg _ (funext fun a => match a with | ⟨0, _⟩ => Fin.ext e3)

/-- What point `t` writes back is block `t` of the result. -/
theorem flushed_eq (hO : Ok m) (c : Dev nD) (t : Fin (cfgM m hO).N) :
    (dats m hO 0 c).flushed 2 t = (((cfgM m hO).win 2).blk t).view.read (Elt Ideal) (res m c) := by
  show ((cfgM m hO).win 2).cut (grid0.coords t) ((dats m hO 0 c).after 2 t) = _
  rw [after0_2]
  unfold outsAt0
  funext y
  show out0_A_2 c (grid0.coords t) (ms0_0 m hO t) (hs0_0 m hO t) (ms0_1 m hO t) (hs0_1 m hO t) (ms0_2 m hO t) (hs0_2 m hO t)
      (iblk m hO c 0 t) (iblk m hO c 1 t) (tbl m 0) y = res m c ((((cfgM m hO).win 2).blk t).view.emb y)
  refine (congrFun (Piece.out_eq c (grid0.coords t) (ms0_0 m hO t) (hs0_0 m hO t) (ms0_1 m hO t) (hs0_1 m hO t)
    (ms0_2 m hO t) (hs0_2 m hO t) (iblk m hO c 0 t) (iblk m hO c 1 t) (tbl m 0)) y).trans ?_
  exact (stored_eq m hO c t y).trans (congrArg (res m c) (emb2 m hO t y).symm)

/-- The 32 blocks cover the result array: index `(b, r, k)` lies in point `b`'s block. So the array ends at the result. -/
theorem final (hO : Ok m) (c : Dev nD) : (dats m hO 0 c).arrAt 2 (cfgM m hO).N = res m c :=
  (dats m hO 0 c).arrAt_eq_of_cover 2 (res m c) (fun t _ => flushed_eq m hO c t) fun (i : S32x1026x1024.Idx) =>
    ⟨(⟨(i 0).val, (i 0).isLt⟩ : Fin (cfgM m hO).N), flush0_2 (adm m hO) _, by
      show i ∈ (((View.whole main_v13).slice ((win0 (adm m hO) 2).rect (⟨(i 0).val, (i 0).isLt⟩ : Fin (cfgM m hO).N))).set : Finset S32x1026x1024.Idx)
      rw [View.set_slice_whole, Rect.mem_set_unit]
      intro a
      obtain ⟨-, -, e2, -⟩ := idx_facts (⟨(i 0).val, (i 0).isLt⟩ : Fin grid0.N)
      have h1 : (i 1 : Nat) < 1026 := (i 1).isLt
      have h2 : (i 2 : Nat) < 1024 := (i 2).isLt
      match a with
      | ⟨0, _⟩ =>
        show cc0_transform_2 (grid0.coords ⟨(i 0).val, (i 0).isLt⟩) 0 * 1 ≤ (i 0 : Nat) ∧ (i 0 : Nat) < cc0_transform_2 (grid0.coords ⟨(i 0).val, (i 0).isLt⟩) 0 * 1 + 1
        rw [e2]; show (i 0 : Nat) * 1 ≤ (i 0 : Nat) ∧ (i 0 : Nat) < (i 0 : Nat) * 1 + 1; omega
      | ⟨1, _⟩ =>
        show cc0_transform_2 (grid0.coords ⟨(i 0).val, (i 0).isLt⟩) 1 * 1026 ≤ (i 1 : Nat) ∧ (i 1 : Nat) < cc0_transform_2 (grid0.coords ⟨(i 0).val, (i 0).isLt⟩) 1 * 1026 + 1026
        rw [e2]; show 0 * 1026 ≤ (i 1 : Nat) ∧ (i 1 : Nat) < 0 * 1026 + 1026; omega
      | ⟨2, _⟩ =>
        show cc0_transform_2 (grid0.coords ⟨(i 0).val, (i 0).isLt⟩) 2 * 1024 ≤ (i 2 : Nat) ∧ (i 2 : Nat) < cc0_transform_2 (grid0.coords ⟨(i 0).val, (i 0).isLt⟩) 2 * 1024 + 1024
        rw [e2]; show 0 * 1024 ≤ (i 2 : Nat) ∧ (i 2 : Nat) < 0 * 1024 + 1024; omega⟩

/-- The table's side condition asks nothing: no index map reads the table. -/
theorem ok : Ok m := by show ok0 _; unfold ok0; trivial

/-- The run, read: the result array ends at `G` of the arguments and the weights buffer, the arguments unchanged. -/
theorem run : θ_run defs (onTc (τ := τ) (main (F := Ideal))) ⟨m, fun _ => 0, ρ⟩ fun r => ∀ c : Dev nD,
      r.2.mem ((c.tc : Thread nD τ).loc main_v13) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m (ok m) c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m))

end Cert.Ragged.Kernel

end
-- ==== Proof.RefRead.lean ====
/-
  The reference program's result is the padded, length-masked sequence of Spec.lean, entry by entry.

  Its stages are read one at a time: the three masks are comparisons of the position word with constants and with the
  row's length word, broadcast along the lanes; the shifted embeddings are a `pad` by one row in front and one behind
  of the weighted input, read inside the operand at positions 1 … 1024 and at the padding value, the integer 0
  converted, at positions 0 and 1025; the two markers are the mask bits converted and scaled by 1 and by 2.
  The softmax of the weights is never opened: it enters only as the vector of four group weights.
-/
import proofs.«431056_j35098472743519_1_alg».proof.Proof.Gen.ReferenceIdeal.Run
import proofs.«431056_j35098472743519_1_alg».proof.Proof.Gen.ReferenceIdeal.Read
import proofs.«431056_j35098472743519_1_alg».proof.Proof.Spec
import Idealize.ShloMosaic.Lib.KernelVsHost

noncomputable section

namespace Cert.Ragged.Ref

open Idealize.ShloMosaic Idealize.ShloMosaic.ValueIdx
open Cert.ReferenceIdeal Cert.ReferenceIdeal.Gen Cert.ReferenceIdeal.Read

variable (x0 : FVec Ideal S32x1024x4x256 .f32) (x1 : FVec Ideal S4 .f32) (x2 : IVec S32 32)

/-- The four group weights: the reference's softmax stage, unopened. -/
abbrev weights : FVec Ideal S4 .f32 := val_main_v9 (F := Ideal) x1

/-- The token mask at `(b, r, k)` is the token bit of position `r` against row `b`'s length word. -/
theorem tok_apply (b : Fin 32) (r : Fin 1026) (k : Fin 1024) :
    val_main_call1_v0 (F := Ideal) x2 (ix3 b r k) = tokBit r (x2 (ix1 b)) := by
  simp only [val_main_call1_v0_apply, val_main_v32_apply, val_main_v24_apply, val_main_v23_apply, val_main_v19_apply,
    val_main_v16_apply, val_main_v15_apply, val_main_v18_apply, val_main_c_2_apply, val_main_v22_apply,
    val_main_v20_apply, val_main_v21_apply, val_main_v17_apply]
  have e : idx_main_v17 (idx_main_v21 (idx_main_v32 (idx_main_call1_v0 (ix3 b r k)))) = ix1 b :=
    funext fun a => match a with | ⟨0, _⟩ => rfl
  rw [e]; rfl

/-- The leading marker at `(b, r, k)`: the bit "position 0" converted, times the word for 1. -/
theorem cls_apply (b : Fin 32) (r : Fin 1026) (k : Fin 1024) :
    val_main_v38 (F := Ideal) (ix3 b r k) = FloatOps.uitofp (F := Ideal) .f32 (clsBit r) := by
  simp only [val_main_v38_apply, val_main_v37_apply, val_main_v35_apply, val_main_v34_apply, val_main_v26_apply,
    val_main_v16_apply, val_main_v15_apply, val_main_v25_apply, val_main_c_3_apply, val_main_v36_apply,
    val_main_cst_6_apply]
  rw [mulf_one_word]; rfl

/-- The closing marker at `(b, r, k)`: the bit "position `len + 1`" converted, times 2. -/
theorem sep_apply (b : Fin 32) (r : Fin 1026) (k : Fin 1024) :
    val_main_v44 (F := Ideal) x2 (ix3 b r k) = FloatOps.mulf two (FloatOps.uitofp .f32 (sepBit r (x2 (ix1 b)))) := by
  simp only [val_main_v44_apply, val_main_v43_apply, val_main_v41_apply, val_main_v40_apply, val_main_v31_apply,
    val_main_v29_apply, val_main_v16_apply, val_main_v15_apply, val_main_v30_apply, val_main_v28_apply,
    val_main_v17_apply, val_main_v27_apply, val_main_c_4_apply, val_main_v42_apply, val_main_cst_7_apply]
  have e : idx_main_v17 (idx_main_v30 (idx_main_v40 (idx_main_v44 (ix3 b r k)))) = ix1 b :=
    funext fun a => match a with | ⟨0, _⟩ => rfl
  rw [e]
  exact mulf_two_comm _

/-- The select's other branch is the zero word everywhere. -/
theorem else_apply (j : S32x1026x1024.Idx) : val_main_call1_v1 (F := Ideal) j = 0 := by
  rw [val_main_call1_v1_apply, val_main_cst_5_apply]; exact zero_word

/-- The padded stage at `(b, r, k)` is the shifted embedding: inside the operand at positions 1 … 1024, where the
    flattened lane `k` is group `k / 256`, lane `k % 256`; the padding value, 0, at positions 0 and 1025. -/
theorem pad_apply (b : Fin 32) (r : Fin 1026) (k : Fin 1024) :
    val_main_v14 (F := Ideal) x0 x1 (ix3 b r k) = shifted x0 (weights x1) b r k := by
  unfold val_main_v14 shifted
  have hb := b.isLt; have hr := r.isLt; have hk := k.isLt
  by_cases h : 1 ≤ r.val ∧ r.val ≤ 1024
  · rw [dif_pos h]
    have hr1 : r.val - 1 < 1024 := by omega
    rw [pad_apply_of_inside _ _ _ _ _ _ _ (ix3 b r k) (ix3 b (⟨r.val - 1, hr1⟩ : Fin 1024) k) (fun a => match a with
      | ⟨0, _⟩ => by show b.val = 0 + b.val * (0 + 1); omega
      | ⟨1, _⟩ => by show r.val = 1 + (r.val - 1) * (0 + 1); omega
      | ⟨2, _⟩ => by show k.val = 0 + k.val * (0 + 1); omega)]
    rw [val_main_v13_apply, val_main_v12_apply, val_main_v11_apply, val_main_v10_apply]
    have e1 : idx_main_v13 (ix3 b (⟨r.val - 1, hr1⟩ : Fin 1024) k)
        = ix4 b (⟨r.val - 1, hr1⟩ : Fin 1024) (⟨k.val / 256, by omega⟩ : Fin 4) (⟨k.val % 256, by omega⟩ : Fin 256) :=
      funext fun a => Fin.ext (by
        match a with
        | ⟨0, _⟩ => show ((b.val * 1024 + (r.val - 1)) * 1024 + k.val) / 1048576 = b.val; omega
        | ⟨1, _⟩ => show ((b.val * 1024 + (r.val - 1)) * 1024 + k.val) / 1024 % 1024 = r.val - 1; omega
        | ⟨2, _⟩ => show ((b.val * 1024 + (r.val - 1)) * 1024 + k.val) / 256 % 4 = k.val / 256; omega
        | ⟨3, _⟩ => show ((b.val * 1024 + (r.val - 1)) * 1024 + k.val) % 256 = k.val % 256; omega)
    rw [e1]
    have e2 : idx_main_v10 (idx_main_v11 (ix4 b (⟨r.val - 1, hr1⟩ : Fin 1024) (⟨k.val / 256, by omega⟩ : Fin 4)
        (⟨k.val % 256, by omega⟩ : Fin 256))) = ix1 (⟨k.val / 256, by omega⟩ : Fin 4) :=
      funext fun a => match a with | ⟨0, _⟩ => rfl
    rw [e2]
  · rw [dif_neg h]
    rw [pad_apply_of_not_inside _ _ _ _ _ _ _ (ix3 b r k) (1 : Fin 3) (fun hin => h ⟨by
        have h1 := hin.1; change 1 ≤ r.val at h1; exact h1, by
        have h3 := hin.2.2; change (r.val - 1) / (0 + 1) < 1024 at h3
        have h1 := hin.1; change 1 ≤ r.val at h1
        rw [Nat.div_one] at h3; omega⟩)]
    rw [val_main_call0_v0_apply, val_main_c_apply]
    exact sitofp_zero_word

/-- The reference's result is `G` of the input, the group weights and the length words. -/
theorem result_eq : val_main_v45 (F := Ideal) x0 x1 x2 = G x0 (weights x1) x2 := by
  funext j
  obtain ⟨b, r, k, rfl⟩ : ∃ (b : Fin 32) (r : Fin 1026) (k : Fin 1024), j = ix3 b r k := ⟨j 0, j 1, j 2, eq_ix3 j⟩
  rw [val_main_v45_apply, val_main_v39_apply, val_main_v33_apply, tok_apply, pad_apply, else_apply, cls_apply, sep_apply]
  rfl

end Cert.Ragged.Ref

end
-- ==== Proof.lean ====
/-
  A batch of variable-length token sequences, padded with a leading and a closing marker.

  For batch row `b` with length word `len`, the result has 1026 positions of 1024 lanes: position 0 holds the marker 1,
  positions `1 ≤ r ≤ len` hold token `r - 1`'s embedding — the input entry times the softmax weight of its group of 256
  lanes —, position `len + 1` holds the marker 2 (the sum taken in 32-bit words), and every other entry is 0
  (Proof/Spec.lean, `G`). The kernel computes one batch row per grid point from a block of the flattened input, the
  lane weights and the length word it loads from the table (Proof/KernelBody.lean, Proof/KernelPiece.lean,
  Proof/KernelValue.lean); the reference computes the same entries with a pad and three broadcast masks
  (Proof/RefRead.lean). They meet entry by entry: the comparisons are the same words on both sides, a mask bit widened
  and converted signed is the bit converted unsigned, the factor 1 is dropped, the factor 2 commutes, and the padding
  value is 0. No law used needs finite inputs, and the softmax is one and the same term on both sides, never opened.
  The table of lengths is read only by the body, never by an index map, so the pipeline asks nothing of its contents.
-/
import proofs.«431056_j35098472743519_1_alg».proof.Defs
import proofs.«431056_j35098472743519_1_alg».proof.Proof.Gen.Kernel
import proofs.«431056_j35098472743519_1_alg».proof.Proof.Gen.Kernel.Skeleton
import proofs.«431056_j35098472743519_1_alg».proof.Proof.Gen.Kernel.Launch
import proofs.«431056_j35098472743519_1_alg».proof.Proof.Gen.Kernel.Points
import proofs.«431056_j35098472743519_1_alg».proof.Proof.Gen.Kernel.Frame
import proofs.«431056_j35098472743519_1_alg».proof.Proof.Gen.KernelIdeal
import proofs.«431056_j35098472743519_1_alg».proof.Proof.Gen.KernelIdeal.Skeleton
import proofs.«431056_j35098472743519_1_alg».proof.Proof.Gen.KernelIdeal.Launch
import proofs.«431056_j35098472743519_1_alg».proof.Proof.Gen.KernelIdeal.Points
import proofs.«431056_j35098472743519_1_alg».proof.Proof.Gen.KernelIdeal.Frame
import proofs.«431056_j35098472743519_1_alg».proof.Proof.Gen.ReferenceIdeal
import proofs.«431056_j35098472743519_1_alg».proof.Proof.Gen.ReferenceIdeal.Run
import proofs.«431056_j35098472743519_1_alg».proof.Proof.Gen.ReferenceIdeal.Read
import proofs.«431056_j35098472743519_1_alg».proof.Proof.Gen.Pre_finite_inputs
import proofs.«431056_j35098472743519_1_alg».proof.Proof.KernelValue
import proofs.«431056_j35098472743519_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.Tactic

/-- The word-level kernel's table condition asks nothing either: its index maps do not read the table. -/
theorem ok_bits (m : (ℓ : Loc Cert.Kernel.nD Cert.Kernel.τ Cert.Kernel.sig) → Buf (Elt Bits) ℓ) : Cert.Kernel.Gen.Ok m := by
  show Cert.Kernel.ok0 _; unfold Cert.Kernel.ok0; trivial

theorem frame_k : Cert.frame_Kernel := fun m ρ _ => Cert.Kernel.Gen.frame m ρ (ok_bits m)

theorem frame_ki : Cert.frame_KernelIdeal := fun m ρ _ => Cert.KernelIdeal.Gen.frame m ρ (Cert.Ragged.Kernel.ok m)

theorem frame_ri : Cert.frame_ReferenceIdeal := fun m ρ _ =>
  (θ_run Cert.ReferenceIdeal.defs _ _).mono (fun _ h c => (h c).2) (Cert.ReferenceIdeal.Value.run (F := Ideal) m ρ)

/-- The four group weights the kernel's region finds are the reference's softmax stage of the weights argument: the two
    programs print the same host operations for it. -/
theorem weights_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S4.Idx → Ideal .f32)
      = Cert.ReferenceIdeal.Read.val_main_v9 (F := Ideal) (m ((c : Thread Cert.KernelIdeal.nD Cert.KernelIdeal.τ).loc Cert.KernelIdeal.main_arg1)) := by
  dsimp only [Cert.KernelIdeal.Gen.V, Cert.KernelIdeal.Gen.hostOps0]; after_results; rfl

/-- Both idealized programs end with the result array at `G` of the input, the softmax weights and the table. -/
theorem algebraic : Cert.algebraic_KernelIdeal_ReferenceIdeal := by
  intro m ρ m' ρ' _ hagree
  refine ⟨fun c => Cert.Ragged.Kernel.res m c, Cert.Ragged.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.Ragged.Ref.result_eq, (hagree c).1, (hagree c).2.1, (hagree c).2.2]
  show Cert.Ragged.G _ _ _ = Cert.Ragged.G _ _ _
  rw [weights_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
